-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S500000x128 : Shape := ⟨2, ![500000, 128]⟩
abbrev S4096 : Shape := ⟨1, ![4096]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_

variable [Facts]

def fn_part1 {F : FTy → Type} [FloatOps F] (main_v13 : IVec S_ 1) (main_v16 : IVec S500000x128 1) : IVec S_ 1 :=
  let main_c_5 : IVec S_ 1 := constantI S_ 1 1#1
  let main_v17 : IVec S_ 1 := (fun x v => Host.reduce IntOp.andi x v reducesTo_S500000x128_S_d0_1 h_S_) main_v16 main_c_5
  let main_v18 : IVec S_ 1 := andi main_v13 main_v17
  main_v18

def fn {F : FTy → Type} [FloatOps F] (main_arg0 : FVec F S4096x128 .f32) (main_arg1 : FVec F S4096x128 .f32) (main_arg2 : FVec F S500000x128 .f32) (main_arg3 : FVec F S500000x128 .f32) (main_arg4 : IVec S4096 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S500000x128 .f32 := Host.absf main_arg2
  let main_cst_2 : FVec F S_ .f32 := constant S_ .f32 0x7F800000#32
  let main_v10 : FVec F S500000x128 .f32 := broadcastInDim S500000x128 ![] bcast_S_S500000x128 main_cst_2
  let main_v11 : IVec S500000x128 1 := cmpf .olt main_v9 main_v10
  let main_c_3 : IVec S_ 1 := constantI S_ 1 1#1
  let main_v12 : IVec S_ 1 := (fun x v => Host.reduce IntOp.andi x v reducesTo_S500000x128_S_d0_1 h_S_) main_v11 main_c_3
  let main_v13 : IVec S_ 1 := andi main_v8 main_v12
  let main_v14 : FVec F S500000x128 .f32 := Host.absf main_arg3
  let main_cst_4 : FVec F S_ .f32 := constant S_ .f32 0x7F800000#32
  let main_v15 : FVec F S500000x128 .f32 := broadcastInDim S500000x128 ![] bcast_S_S500000x128 main_cst_4
  let main_v16 : IVec S500000x128 1 := cmpf .olt main_v14 main_v15
  fn_part1 (F := F) main_v13 main_v16
-- ==== Kernel.lean ====
abbrev S4096x128 : Shape := ⟨2, ![4096, 128]⟩
abbrev S500000x128 : Shape := ⟨2, ![500000, 128]⟩
abbrev S4096 : Shape := ⟨1, ![4096]⟩
abbrev S_ : Shape := ⟨0, ![]⟩
abbrev S4096x1 : Shape := ⟨2, ![4096, 1]⟩
abbrev S512x128 : Shape := ⟨2, ![512, 128]⟩
abbrev S512 : Shape := ⟨1, ![512]⟩
abbrev S512x1 : Shape := ⟨2, ![512, 1]⟩

abbrev nBuf : Space → Nat
  | .hbm => 43
  | .vmem => 12
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S500000x128, .f32⟩
  | .hbm, ⟨3, _⟩ => ⟨S500000x128, .f32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S4096x128, .f32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S4096x1, .i32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S500000x128, .f32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S500000x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_c_1 : Ref sig .tc := ⟨.hbm, 14, rfl⟩
abbrev main_call0_v7 : Ref sig .tc := ⟨.hbm, 15, rfl⟩
abbrev main_call0_v8 : Ref sig .tc := ⟨.hbm, 16, rfl⟩
abbrev main_call0_c_2 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14_0 : Ref sig .tc := ⟨.hbm, 23, rfl⟩
abbrev main_call0_v14_1 : Ref sig .tc := ⟨.hbm, 24, rfl⟩
abbrev main_call0_c_3 : Ref sig .tc := ⟨.hbm, 25, rfl⟩
abbrev main_call0_v15 : Ref sig .tc := ⟨.hbm, 26, rfl⟩
abbrev main_call0_v16 : Ref sig .tc := ⟨.hbm, 27, rfl⟩
abbrev main_call0_c_4 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_v0_0 : Ref sig .tc := ⟨.hbm, 33, rfl⟩
abbrev main_call0_c_5 : Ref sig .tc := ⟨.hbm, 34, rfl⟩
abbrev main_call0_v22 : Ref sig .tc := ⟨.hbm, 35, rfl⟩
abbrev main_call0_v23 : Ref sig .tc := ⟨.hbm, 36, rfl⟩
abbrev main_call0_c_6 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_v0_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  broadcasts_S512x1_S512x128 : S512x1.Broadcasts S512x128
  shapeCasts_S512x128_S512x128 : S512x128.ShapeCasts S512x128
  gather_S500000x128_S4096x1_S4096x128_1_0_n_n_0_1_1128_wf : GatherDims.WF S500000x128 S4096x1 S4096x128 [1] [0] [] [0] [] 1 ![1, 128]
  scatter_S500000x128_S4096x1_S4096x128_1_0_0_1_wf : ScatterDims.WF S500000x128 S4096x1 S4096x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x128.size a
  hwx0_1 : ∀ i : grid0.Coords, EltTy.bits .f32 = 32 ∨ (Rect.block (s := S4096x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .f32 = 32 ∨ (Rect.block (s := S4096x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x128.size a
  hwx0_3 : ∀ i : grid0.Coords, EltTy.bits .f32 = 32 ∨ (Rect.block (s := S4096x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S4096x128.size a
  hwx0_4 : ∀ i : grid0.Coords, EltTy.bits .f32 = 32 ∨ (Rect.block (s := S4096x128) S512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S4096x128.size a
  hwx0_5 : ∀ i : grid0.Coords, EltTy.bits .f32 = 32 ∨ (Rect.block (s := S4096x128) S512x128.size (cc0_transform_5 i) (hinb0_5 i)).WholeWords (EltTy.packing .f32)

variable [Facts₀]

def gather_S500000x128_S4096x1_S4096x128_1_0_n_n_0_1_1128 : GatherDims S500000x128 S4096x1 S4096x128 where
  offsetDims := [1]
  collapsedSliceDims := [0]
  operandBatchingDims := []
  startIndicesBatchingDims := []
  startIndexMap := [0]
  indexVectorDim := 1
  sliceSizes := ![1, 128]
  wf := gather_S500000x128_S4096x1_S4096x128_1_0_n_n_0_1_1128_wf
def scatter_S500000x128_S4096x1_S4096x128_1_0_0_1 : ScatterDims S500000x128 S4096x1 S4096x128 where
  updateWindowDims := [1]
  insertedWindowDims := [0]
  scatterDimsToOperandDims := [0]
  indexVectorDim := 1
  wf := scatter_S500000x128_S4096x1_S4096x128_1_0_0_1_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v6) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v13) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v14_0) S512x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v14_1) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x128 : Shape := ⟨2, ![4096, 128]⟩
abbrev S500000x128 : Shape := ⟨2, ![500000, 128]⟩
abbrev S4096 : Shape := ⟨1, ![4096]⟩
abbrev S_ : Shape := ⟨0, ![]⟩
abbrev S4096x1 : Shape := ⟨2, ![4096, 1]⟩

abbrev nBuf : Space → Nat
  | .hbm => 95
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S500000x128, .f32⟩
  | .hbm, ⟨3, _⟩ => ⟨S500000x128, .f32⟩
  | .hbm, ⟨4, _⟩ => ⟨S4096, .i32⟩
  | .hbm, ⟨5, _⟩ => ⟨S4096x128, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x128, .f32⟩
  | .hbm, ⟨24, _⟩ => ⟨S4096x128, .f32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4096x128, .f32⟩
  | .hbm, ⟨34, _⟩ => ⟨S_, .f32⟩
  | .hbm, ⟨35, _⟩ => ⟨S4096x128, .f32⟩
  | .hbm, ⟨36, _⟩ => ⟨S4096x128, .f32⟩
  | .hbm, ⟨37, _⟩ => ⟨S_, .f32⟩
  | .hbm, ⟨38, _⟩ => ⟨S4096x128, .f32⟩
  | .hbm, ⟨39, _⟩ => ⟨S4096x128, .f32⟩
  | .hbm, ⟨40, _⟩ => ⟨S4096x128, .f32⟩
  | .hbm, ⟨41, _⟩ => ⟨S4096x128, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x128, .f32⟩
  | .hbm, ⟨50, _⟩ => ⟨S4096x128, .f32⟩
  | .hbm, ⟨51, _⟩ => ⟨S_, .i32⟩
  | .hbm, ⟨52, _⟩ => ⟨S4096, .i32⟩
  | .hbm, ⟨53, _⟩ => ⟨S4096, .i1⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096x1, .i32⟩
  | .hbm, ⟨59, _⟩ => ⟨S500000x128, .f32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x128, .f32⟩
  | .hbm, ⟨69, _⟩ => ⟨S_, .f32⟩
  | .hbm, ⟨70, _⟩ => ⟨S4096x128, .f32⟩
  | .hbm, ⟨71, _⟩ => ⟨S4096x128, .f32⟩
  | .hbm, ⟨72, _⟩ => ⟨S_, .f32⟩
  | .hbm, ⟨73, _⟩ => ⟨S4096x128, .f32⟩
  | .hbm, ⟨74, _⟩ => ⟨S4096x128, .f32⟩
  | .hbm, ⟨75, _⟩ => ⟨S4096x128, .f32⟩
  | .hbm, ⟨76, _⟩ => ⟨S4096x128, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S4096x128, .f32⟩
  | .hbm, ⟨85, _⟩ => ⟨S4096x128, .f32⟩
  | .hbm, ⟨86, _⟩ => ⟨S_, .i32⟩
  | .hbm, ⟨87, _⟩ => ⟨S4096, .i32⟩
  | .hbm, ⟨88, _⟩ => ⟨S4096, .i1⟩
  | .hbm, ⟨89, _⟩ => ⟨S_, .i32⟩
  | .hbm, ⟨90, _⟩ => ⟨S4096, .i32⟩
  | .hbm, ⟨91, _⟩ => ⟨S4096, .i32⟩
  | .hbm, ⟨92, _⟩ => ⟨S4096, .i32⟩
  | .hbm, ⟨93, _⟩ => ⟨S4096x1, .i32⟩
  | .hbm, ⟨94, _⟩ => ⟨S500000x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call2_v0 : Ref sig .tc := ⟨.hbm, 41, rfl⟩
abbrev main_call2_cst : Ref sig .tc := ⟨.hbm, 42, rfl⟩
abbrev main_call2_v1 : Ref sig .tc := ⟨.hbm, 43, rfl⟩
abbrev main_call2_v2 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_c_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_9 : Ref sig .tc := ⟨.hbm, 69, rfl⟩
abbrev main_v41 : Ref sig .tc := ⟨.hbm, 70, rfl⟩
abbrev main_v42 : Ref sig .tc := ⟨.hbm, 71, rfl⟩
abbrev main_cst_10 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_call3_v0 : Ref sig .tc := ⟨.hbm, 76, rfl⟩
abbrev main_call3_cst : Ref sig .tc := ⟨.hbm, 77, rfl⟩
abbrev main_call3_v1 : Ref sig .tc := ⟨.hbm, 78, rfl⟩
abbrev main_call3_v2 : Ref sig .tc := ⟨.hbm, 79, rfl⟩
abbrev main_v46 : Ref sig .tc := ⟨.hbm, 80, rfl⟩
abbrev main_cst_11 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_12 : Ref sig .tc := ⟨.hbm, 86, rfl⟩
abbrev main_v51 : Ref sig .tc := ⟨.hbm, 87, rfl⟩
abbrev main_v52 : Ref sig .tc := ⟨.hbm, 88, rfl⟩
abbrev main_c_13 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  bcast_S_S4096 : S_.BroadcastsInDim S4096 (![] : Fin 0 → Fin S4096.rank)
  bcast_S_S4096x128 : S_.BroadcastsInDim S4096x128 (![] : Fin 0 → Fin S4096x128.rank)
  gather_S500000x128_S4096x1_S4096x128_1_0_n_n_0_1_1128_wf : GatherDims.WF S500000x128 S4096x1 S4096x128 [1] [0] [] [0] [] 1 ![1, 128]
  scatter_S500000x128_S4096x1_S4096x128_1_0_0_1_wf : ScatterDims.WF S500000x128 S4096x1 S4096x128 [1] [0] [0] 1

variable [Facts₀]

def gather_S500000x128_S4096x1_S4096x128_1_0_n_n_0_1_1128 : GatherDims S500000x128 S4096x1 S4096x128 where
  offsetDims := [1]
  collapsedSliceDims := [0]
  operandBatchingDims := []
  startIndicesBatchingDims := []
  startIndexMap := [0]
  indexVectorDim := 1
  sliceSizes := ![1, 128]
  wf := gather_S500000x128_S4096x1_S4096x128_1_0_n_n_0_1_1128_wf
def scatter_S500000x128_S4096x1_S4096x128_1_0_0_1 : ScatterDims S500000x128 S4096x1 S4096x128 where
  updateWindowDims := [1]
  insertedWindowDims := [0]
  scatterDimsToOperandDims := [0]
  indexVectorDim := 1
  wf := scatter_S500000x128_S4096x1_S4096x128_1_0_0_1_wf

class Facts : Prop extends Facts₀ where

variable [Facts]
-- ==== Proof.RowSpec.lean ====
/-
  The mathematics of one row of the memory-bank update, on the extended reals.

  A row `v` of 128 entries is scaled to unit length with the norm floored at a small constant:
  `v c / max (sqrt (sum_k v k * v k)) eps`. The update of a bank row `g` by an incoming row `a` is the
  equal-weight blend `g c * 1/2 + unit(a) c * 1/2`, scaled to unit length again. Both programs compute exactly this
  function of the two rows, so no law of the extended reals beyond the definitions is needed to join them:
  the kernel evaluates it on 512-row tiles, the reference on all 4096 rows at once, and a row's result
  depends on that row alone.
-/
import Idealize.ShloMosaic.PureOps.Ideal

noncomputable section

open Idealize.ShloMosaic

namespace Cert.RowUpdate

/-- The floor under a row's norm: the f32 nearest to 1e-12, read as the extended real it denotes. -/
def eps : EReal := Ideal.ofBits .f32 0x2B8CBCCC#32

/-- The blend weight: the f32 pattern of one half. -/
def half : EReal := Ideal.ofBits .f32 0x3F000000#32

/-- A row divided by its Euclidean norm, the norm floored at `eps`. -/
def unitRow (v : Fin 128 → EReal) (c : Fin 128) : EReal :=
  Ideal.div (v c) (max (Ideal.sqrt (∑ k : Fin 128, v k * v k)) eps)

/-- The bank row `g` and the unit-length incoming row `a`, blended with equal weights. -/
def blendRow (g a : Fin 128 → EReal) (c : Fin 128) : EReal :=
  g c * half + unitRow a c * half

/-- The new bank row: the blend, scaled to unit length. -/
def newRow (a g : Fin 128 → EReal) : Fin 128 → EReal :=
  unitRow (blendRow g a)

end Cert.RowUpdate

end
-- ==== Proof.KernelRows.lean ====
/-
  The kernel's body, read one row at a time at the ideal instance.

  A tile is 512 rows of 128 entries. The body squares a tile entrywise, sums each row over its 128 lanes,
  takes the square root, floors it at `eps`, spreads the resulting column back over the lanes and divides:
  entry (p, q) of the quotient depends only on row p of the tile. Composing the three such steps of the body
  (unit-length incoming row, blend with the gathered bank row, unit length again) gives at entry (p, q)
  the row function `RowUpdate.newRow` of row p of the two loaded tiles.
-/
import proofs.«414311_j73650099192086_3_alg».proof.Proof.Gen.KernelIdeal.Skeleton
import proofs.«414311_j73650099192086_3_alg».proof.Proof.RowSpec
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.Rows

open Cert.KernelIdeal Cert.KernelIdeal.Gen Cert.RowUpdate

/-! ## The layout steps between a tile and its column of row norms -/

/-- A vector of 512 row values recast as a 512×1 column: entry (p, 0) is value p. -/
theorem column_of_vector (v : FVec Ideal S512 .f32) (h : S512.ShapeCasts S512x1) (p : Fin 512) (z : Fin 1) :
    shapeCast S512x1 v h (ix2 p z) = v (ix1 p) := by
  refine shapeCast_apply v _ _ _ ?_
  rw [Shape.rowMajor_val_one, Shape.rowMajor_val_two]
  have := z.isLt
  show p.val = p.val * 1 + z.val
  omega

/-- A 512×1 column spread over the 128 lanes: entry (p, q) is the column's entry (p, 0). -/
theorem lanes_of_column (v : FVec Ideal S512x1 .f32) (h : S512x1.Broadcasts S512x128) (p : Fin 512) (q : Fin 128) :
    broadcastTo S512x128 v h (ix2 p q) = v (ix2 p 0) := by
  refine broadcastTo_apply v _ _ _ ?_
  intro a
  match a with
  | ⟨0, _⟩ => show p.val = if (512 : Nat) = 1 then 0 else p.val; rw [if_neg (by decide)]
  | ⟨1, _⟩ => show 0 = if (1 : Nat) = 1 then 0 else q.val; rw [if_pos rfl]

/-- The lane sum of a tile's squares at row p is the sum over the row's 128 entries. -/
theorem row_sum_squares (v : FVec Ideal S512x128 .f32) (h : S512x128.Reduces [1] S512) (hφ : FKind.Formats FTy.f32)
    (hacc : (0x00000000#32 : BitVec 32) = FKind.add.neutral FTy.f32 hφ) (p : Fin 512) :
    multiReduction .add [1] S512 (mulf v v) 0x00000000#32 h hφ hacc (ix1 p)
      = ∑ k : Fin 128, v (ix2 p k) * v (ix2 p k) := by
  refine (Ideal.multiReduction_add_single (mulf v v) 0x00000000#32 h hφ hacc (ix1 p)).trans ?_
  refine Finset.sum_congr rfl fun k _ => ?_
  have e : h.lift (ix1 p) k = ix2 p k :=
    funext fun a => Fin.ext (by match a with | ⟨0, _⟩ => rfl | ⟨1, _⟩ => rfl)
  exact congrArg (fun i => v i * v i) e

/-- The column of row norms of a tile whose row p is `r`: entry (p, 0) is the norm of `r`. -/
theorem norm_column (v : FVec Ideal S512x128 .f32) (r : Fin 128 → EReal) (p : Fin 512)
    (hv : ∀ k : Fin 128, v (ix2 p k) = r k)
    (h : S512x128.Reduces [1] S512) (hφ : FKind.Formats FTy.f32)
    (hacc : (0x00000000#32 : BitVec 32) = FKind.add.neutral FTy.f32 hφ) (hc : S512.ShapeCasts S512x1) (z : Fin 1) :
    sqrt (shapeCast S512x1 (multiReduction .add [1] S512 (mulf v v) 0x00000000#32 h hφ hacc) hc) (ix2 p z)
      = Ideal.sqrt (∑ k : Fin 128, r k * r k) := by
  show Ideal.sqrt (shapeCast S512x1 (multiReduction .add [1] S512 (mulf v v) 0x00000000#32 h hφ hacc) hc (ix2 p z)) = _
  rw [column_of_vector]
  refine congrArg Ideal.sqrt ((row_sum_squares v h hφ hacc p).trans (Finset.sum_congr rfl fun k _ => ?_))
  rw [hv k]

/-- A tile divided by its floored norm column, spread over the lanes: entry (p, q) is the unit-length row at q. -/
theorem unit_tile (v : FVec Ideal S512x128 .f32) (n : FVec Ideal S512x1 .f32) (r : Fin 128 → EReal) (p : Fin 512) (q : Fin 128)
    (hv : v (ix2 p q) = r q) (hn : n (ix2 p 0) = Ideal.sqrt (∑ k : Fin 128, r k * r k))
    (e : Ideal .f32) (he : e = eps) (hb : S512x1.Broadcasts S512x128) :
    divf v (broadcastTo S512x128 (maximumf n (broadcast S512x1 e)) hb) (ix2 p q) = unitRow r q := by
  show Ideal.div (v (ix2 p q)) (broadcastTo S512x128 (maximumf n (broadcast S512x1 e)) hb (ix2 p q)) = _
  rw [lanes_of_column, hv]
  show Ideal.div (r q) (max (n (ix2 p 0)) e) = _
  rw [hn, he]
  rfl

theorem sqrt_column (v : FVec Ideal S512x1 .f32) (i : S512x1.Idx) : sqrt v i = Ideal.sqrt (v i) := rfl
theorem scalar_pattern (w : BitVec 32) : (Scalar.ofBits .f32 w : Ideal .f32) = Ideal.ofBits .f32 w := rfl

variable [Cert.KernelIdeal.Facts]

/-! ## The first output's chain: incoming tile `x0`, gathered bank tile `x2` -/

/-- The blend of the gathered tile with the unit-length incoming tile, at entry (p, q). -/
theorem blend1_apply (x0 x2 : Vec Ideal S512x128 .f32) (p : Fin 512) (q : Fin 128) :
    k0_pay3 x0 x2 (ix2 p q) = blendRow (fun k => x2 (ix2 p k)) (fun k => x0 (ix2 p k)) q := by
  unfold k0_pay3
  simp only [addf_apply, mulf_apply, divf_apply, broadcast_apply, maximumf_apply, shapeCast_self, lanes_of_column,
    sqrt_column, column_of_vector, scalar_pattern]
  refine congrArg (fun s => x2 (ix2 p q) * half + Ideal.div (x0 (ix2 p q)) (max (Ideal.sqrt s) eps) * half) ?_
  exact row_sum_squares x0 _ _ _ p

/-- The norm column of that blend, at entry (p, 0). -/
theorem blend1_norm_apply (x0 x2 : Vec Ideal S512x128 .f32) (p : Fin 512) (z : Fin 1) :
    k0_pay5 x0 x2 (ix2 p z)
      = Ideal.sqrt (∑ k : Fin 128, blendRow (fun k => x2 (ix2 p k)) (fun k => x0 (ix2 p k)) k
          * blendRow (fun k => x2 (ix2 p k)) (fun k => x0 (ix2 p k)) k) := by
  unfold k0_pay5
  exact norm_column (k0_pay3 x0 x2) _ p (fun k => blend1_apply x0 x2 p k) _ _ _ _ z

/-- What the body stores into the first output tile, at entry (p, q): the new bank row of row p, at q. -/
theorem store1_apply (x0 x2 : Vec Ideal S512x128 .f32) (p : Fin 512) (q : Fin 128) :
    k0_pay1 (k0_pay3 x0 x2) (k0_pay5 x0 x2) (Scalar.ofBits .f32 0x2B8CBCCC#32) (ix2 p q)
      = newRow (fun k => x0 (ix2 p k)) (fun k => x2 (ix2 p k)) q := by
  unfold k0_pay1
  exact unit_tile (k0_pay3 x0 x2) (k0_pay5 x0 x2) _ p q (blend1_apply x0 x2 p q) (blend1_norm_apply x0 x2 p 0) _ rfl _

/-! ## The second output's chain: incoming tile `x1`, gathered bank tile `x3` -/

/-- The blend of the gathered tile with the unit-length incoming tile, at entry (p, q). -/
theorem blend2_apply (x1 x3 : Vec Ideal S512x128 .f32) (p : Fin 512) (q : Fin 128) :
    k0_pay4 x1 x3 (ix2 p q) = blendRow (fun k => x3 (ix2 p k)) (fun k => x1 (ix2 p k)) q := by
  unfold k0_pay4
  simp only [addf_apply, mulf_apply, divf_apply, broadcast_apply, maximumf_apply, shapeCast_self, lanes_of_column,
    sqrt_column, column_of_vector, scalar_pattern]
  refine congrArg (fun s => x3 (ix2 p q) * half + Ideal.div (x1 (ix2 p q)) (max (Ideal.sqrt s) eps) * half) ?_
  exact row_sum_squares x1 _ _ _ p

/-- The norm column of that blend, at entry (p, 0). -/
theorem blend2_norm_apply (x1 x3 : Vec Ideal S512x128 .f32) (p : Fin 512) (z : Fin 1) :
    k0_pay6 x1 x3 (ix2 p z)
      = Ideal.sqrt (∑ k : Fin 128, blendRow (fun k => x3 (ix2 p k)) (fun k => x1 (ix2 p k)) k
          * blendRow (fun k => x3 (ix2 p k)) (fun k => x1 (ix2 p k)) k) := by
  unfold k0_pay6
  exact norm_column (k0_pay4 x1 x3) _ p (fun k => blend2_apply x1 x3 p k) _ _ _ _ z

/-- What the body stores into the second output tile, at entry (p, q): the new bank row of row p, at q. -/
theorem store2_apply (x1 x3 : Vec Ideal S512x128 .f32) (p : Fin 512) (q : Fin 128) :
    k0_pay2 (k0_pay4 x1 x3) (k0_pay6 x1 x3) (ix2 p q)
      = newRow (fun k => x1 (ix2 p k)) (fun k => x3 (ix2 p k)) q := by
  unfold k0_pay2
  exact unit_tile (k0_pay4 x1 x3) (k0_pay6 x1 x3) _ p q (blend2_apply x1 x3 p q) (blend2_norm_apply x1 x3 p 0) _ rfl _

end Cert.KernelIdeal.Rows

end
-- ==== Proof.KernelTiles.lean ====
/-
  From tiles to whole arrays: what the two result arrays of the kernel's one region hold after the run.

  Grid point t works on rows 512·t … 512·t + 511 of every one of its six arrays (the index maps are all
  (t, 0)), so row p of a tile at point t is row 512·t + p of its array, and the eight tiles of a result
  tile its 4096 rows exactly. Hence each result array ends holding, at entry (r, c), the new bank row
  computed from row r of the incoming array and row r of the gathered array, at c.
-/
import proofs.«414311_j73650099192086_3_alg».proof.Proof.Gen.KernelIdeal.Frame
import proofs.«414311_j73650099192086_3_alg».proof.Proof.KernelRows

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.KernelIdeal.Rows Cert.RowUpdate

/-- Every row of an incoming array `a` paired with the same row of a gathered array `g`, updated. -/
def newRows (a g : (⟨2, ![4096, 128]⟩ : Shape).Idx → EReal) : (⟨2, ![4096, 128]⟩ : Shape).Idx → EReal :=
  fun i => newRow (fun k => a (ix2 (n0 := 4096) (n1 := 128) (i 0) k)) (fun k => g (ix2 (n0 := 4096) (n1 := 128) (i 0) k)) (i 1)

/-- `newRow` respects equal rows and equal positions. -/
theorem newRow_congr {a a' g g' : Fin 128 → EReal} {q q' : Fin 128} (ha : a = a') (hg : g = g') (hq : q.val = q'.val) :
    newRow a g q = newRow a' g' q' := by
  subst ha hg; rw [Fin.ext hq]

theorem zero_offsets : (![0, 0] : Fin 2 → Nat) = fun _ => 0 := funext fun a => by fin_cases a <;> rfl

/-- The first output tile after the body, at any entry: the new bank row of that entry's row. -/
theorem tile1_apply (x0 x1 x2 x3 : Vec Ideal S512x128 .f32) (j : S512x128.Idx) :
    out0_4 x0 x1 x2 x3 j = newRow (fun k => x0 (ix2 (n0 := 512) (n1 := 128) (j 0) k)) (fun k => x2 (ix2 (n0 := 512) (n1 := 128) (j 0) k)) (j 1) := by
  unfold out0_4
  rw [View.canon_unit_zero zero_offsets]
  simp only [View.ld_unit_zero (S := S512x128) zero_offsets]
  obtain ⟨p, q, rfl⟩ : ∃ (p : Fin 512) (q : Fin 128), j = ix2 p q := ⟨j 0, j 1, eq_ix2 j⟩
  exact store1_apply x0 x2 p q

/-- The second output tile after the body, at any entry. -/
theorem tile2_apply (x0 x1 x2 x3 : Vec Ideal S512x128 .f32) (j : S512x128.Idx) :
    out0_5 x0 x1 x2 x3 j = newRow (fun k => x1 (ix2 (n0 := 512) (n1 := 128) (j 0) k)) (fun k => x3 (ix2 (n0 := 512) (n1 := 128) (j 0) k)) (j 1) := by
  unfold out0_5
  rw [View.canon_unit_zero zero_offsets]
  simp only [View.ld_unit_zero (S := S512x128) zero_offsets]
  obtain ⟨p, q, rfl⟩ : ∃ (p : Fin 512) (q : Fin 128), j = ix2 p q := ⟨j 0, j 1, eq_ix2 j⟩
  exact store2_apply x1 x3 p q

/-- The six index maps, decided over the grid: all are (t, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

variable (m : (ℓ : Loc nD τ sig) → Buf (Elt Ideal) ℓ) (ρ : Dev nD → PrngReg)

/-- WHAT POINT t WRITES BACK to the first result is tile t of `newRows` of the incoming and gathered arrays. -/
theorem flushed1_eq (c : Dev nD) (t : Fin cfg0.N) :
    (dats m 0 c).flushed 4 t
      = ((cfg0.win 4).blk t).view.read (Elt Ideal) (newRows (V m c main_arg0) (V m c main_call0_v6)) := by
  show (cfg0.win 4).cut (grid0.coords t) ((dats m 0 c).after 4 t) = _
  rw [after0_4]
  obtain ⟨a0, a1, -, -, g0, g1, -, -, o0, o1, -, -⟩ := index_maps t
  funext j
  show out0_4 (iblk m c 0 t) (iblk m c 1 t) (iblk m c 2 t) (iblk m c 3 t) j
    = newRows (V m c main_arg0) (V m c main_call0_v6) (((cfg0.win 4).blk t).view.emb j)
  refine (tile1_apply (iblk m c 0 t) (iblk m c 1 t) (iblk m c 2 t) (iblk m c 3 t) j).trans ?_
  refine newRow_congr (funext fun k => ?_) (funext fun k => ?_) ?_
  · show V m c main_arg0 (((cfg0.win 0).blk t).view.emb (ix2 (n0 := 512) (n1 := 128) (j 0) k)) = V m c main_arg0 _
    congr 1
    funext a; apply Fin.ext
    match a with
    | ⟨0, _⟩ => show win0_0.index t (0 : Fin 2) * 512 + 1 * (j 0).val = win0_4.index t (0 : Fin 2) * 512 + 1 * (j 0).val; rw [a0, o0]
    | ⟨1, _⟩ => show win0_0.index t (1 : Fin 2) * 128 + 1 * k.val = k.val; rw [a1]; omega
  · show V m c main_call0_v6 (((cfg0.win 2).blk t).view.emb (ix2 (n0 := 512) (n1 := 128) (j 0) k)) = V m c main_call0_v6 _
    congr 1
    funext a; apply Fin.ext
    match a with
    | ⟨0, _⟩ => show win0_2.index t (0 : Fin 2) * 512 + 1 * (j 0).val = win0_4.index t (0 : Fin 2) * 512 + 1 * (j 0).val; rw [g0, o0]
    | ⟨1, _⟩ => show win0_2.index t (1 : Fin 2) * 128 + 1 * k.val = k.val; rw [g1]; omega
  · show (j 1).val = win0_4.index t (1 : Fin 2) * 128 + 1 * (j 1).val
    rw [o1]; omega

/-- An index of the first result array is in point t's tile iff each coordinate is in the tile's range. -/
theorem mem_tile1 (t : Fin cfg0.N) (i : S4096x128.Idx) :
    i ∈ ((cfg0.win 4).blk t).view.set ↔ ∀ a : Fin 2, win0_4.index t a * S512x128.size a ≤ (i a).val ∧ (i a).val < win0_4.index t a * S512x128.size a + S512x128.size a := by
  show i ∈ ((View.whole main_call0_v14_0).slice (win0_4.rect t)).set ↔ _
  rw [View.set_slice_whole, Rect.mem_set_unit]
  exact Iff.rfl

/-- Row r lies in the tile of point r / 512. -/
theorem covered1 (i : S4096x128.Idx) : ∃ t : Fin cfg0.N, (cfg0.win 4).flush t = true ∧ i ∈ ((cfg0.win 4).blk t).view.set := by
  have hi0 : (i 0).val < 4096 := (i 0).isLt
  have hi1 : (i 1).val < 128 := (i 1).isLt
  have hN : grid0.N = 8 := N_0
  let t : Fin cfg0.N := ⟨(i 0).val / 512, by show (i 0).val / 512 < grid0.N; omega⟩
  obtain ⟨-, -, -, -, -, -, -, -, o0, o1, -, -⟩ := index_maps t
  have ht : t.val = (i 0).val / 512 := rfl
  refine ⟨t, flush0_4 t, ?_⟩
  rw [mem_tile1]
  intro a
  match a with
  | ⟨0, _⟩ => show win0_4.index t (0 : Fin 2) * 512 ≤ (i 0).val ∧ (i 0).val < win0_4.index t (0 : Fin 2) * 512 + 512; rw [o0, ht]; omega
  | ⟨1, _⟩ => show win0_4.index t (1 : Fin 2) * 128 ≤ (i 1).val ∧ (i 1).val < win0_4.index t (1 : Fin 2) * 128 + 128; rw [o1]; omega

/-- THE FIRST RESULT ARRAY of the region after the run. -/
theorem final1 (c : Dev nD) :
    (dats m 0 c).arrAt 4 cfg0.N = newRows (V m c main_arg0) (V m c main_call0_v6) :=
  (dats m 0 c).arrAt_eq_of_cover 4 (newRows (V m c main_arg0) (V m c main_call0_v6)) (fun t _ => flushed1_eq m c t) covered1

/-- WHAT POINT t WRITES BACK to the second result is tile t of `newRows` of the other incoming and gathered arrays. -/
theorem flushed2_eq (c : Dev nD) (t : Fin cfg0.N) :
    (dats m 0 c).flushed 5 t
      = ((cfg0.win 5).blk t).view.read (Elt Ideal) (newRows (V m c main_arg1) (V m c main_call0_v13)) := by
  show (cfg0.win 5).cut (grid0.coords t) ((dats m 0 c).after 5 t) = _
  rw [after0_5]
  obtain ⟨-, -, a0, a1, -, -, g0, g1, -, -, o0, o1⟩ := index_maps t
  funext j
  show out0_5 (iblk m c 0 t) (iblk m c 1 t) (iblk m c 2 t) (iblk m c 3 t) j
    = newRows (V m c main_arg1) (V m c main_call0_v13) (((cfg0.win 5).blk t).view.emb j)
  refine (tile2_apply (iblk m c 0 t) (iblk m c 1 t) (iblk m c 2 t) (iblk m c 3 t) j).trans ?_
  refine newRow_congr (funext fun k => ?_) (funext fun k => ?_) ?_
  · show V m c main_arg1 (((cfg0.win 1).blk t).view.emb (ix2 (n0 := 512) (n1 := 128) (j 0) k)) = V m c main_arg1 _
    congr 1
    funext a; apply Fin.ext
    match a with
    | ⟨0, _⟩ => show win0_1.index t (0 : Fin 2) * 512 + 1 * (j 0).val = win0_5.index t (0 : Fin 2) * 512 + 1 * (j 0).val; rw [a0, o0]
    | ⟨1, _⟩ => show win0_1.index t (1 : Fin 2) * 128 + 1 * k.val = k.val; rw [a1]; omega
  · show V m c main_call0_v13 (((cfg0.win 3).blk t).view.emb (ix2 (n0 := 512) (n1 := 128) (j 0) k)) = V m c main_call0_v13 _
    congr 1
    funext a; apply Fin.ext
    match a with
    | ⟨0, _⟩ => show win0_3.index t (0 : Fin 2) * 512 + 1 * (j 0).val = win0_5.index t (0 : Fin 2) * 512 + 1 * (j 0).val; rw [g0, o0]
    | ⟨1, _⟩ => show win0_3.index t (1 : Fin 2) * 128 + 1 * k.val = k.val; rw [g1]; omega
  · show (j 1).val = win0_5.index t (1 : Fin 2) * 128 + 1 * (j 1).val
    rw [o1]; omega

/-- An index of the second result array is in point t's tile iff each coordinate is in the tile's range. -/
theorem mem_tile2 (t : Fin cfg0.N) (i : S4096x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_call0_v14_1).slice (win0_5.rect t)).set ↔ _
  rw [View.set_slice_whole, Rect.mem_set_unit]
  exact Iff.rfl

/-- Row r lies in the tile of point r / 512. -/
theorem covered2 (i : S4096x128.Idx) : ∃ t : Fin cfg0.N, (cfg0.win 5).flush t = true ∧ i ∈ ((cfg0.win 5).blk t).view.set := by
  have hi0 : (i 0).val < 4096 := (i 0).isLt
  have hi1 : (i 1).val < 128 := (i 1).isLt
  have hN : grid0.N = 8 := N_0
  let t : Fin cfg0.N := ⟨(i 0).val / 512, by show (i 0).val / 512 < grid0.N; omega⟩
  obtain ⟨-, -, -, -, -, -, -, -, -, -, o0, o1⟩ := index_maps t
  have ht : t.val = (i 0).val / 512 := rfl
  refine ⟨t, flush0_5 t, ?_⟩
  rw [mem_tile2]
  intro a
  match a with
  | ⟨0, _⟩ => show win0_5.index t (0 : Fin 2) * 512 ≤ (i 0).val ∧ (i 0).val < win0_5.index t (0 : Fin 2) * 512 + 512; rw [o0, ht]; omega
  | ⟨1, _⟩ => show win0_5.index t (1 : Fin 2) * 128 ≤ (i 1).val ∧ (i 1).val < win0_5.index t (1 : Fin 2) * 128 + 128; rw [o1]; omega

/-- THE SECOND RESULT ARRAY of the region after the run. -/
theorem final2 (c : Dev nD) :
    (dats m 0 c).arrAt 5 cfg0.N = newRows (V m c main_arg1) (V m c main_call0_v13) :=
  (dats m 0 c).arrAt_eq_of_cover 5 (newRows (V m c main_arg1) (V m c main_call0_v13)) (fun t _ => flushed2_eq m c t) covered2

end Cert.KernelIdeal.Tiles

end
-- ==== Proof.KernelRun.lean ====
/-
  The kernel program's run, read: each of its two results is the bank table with the updated rows scattered into it.

  Before the region the host turns `y` into row numbers (a negative entry counts from the table's end) and
  gathers those rows of each table; after it, the host computes the same row numbers again and scatters the
  region's two result arrays over the tables, an update replacing the row it lands on.
-/
import proofs.«414311_j73650099192086_3_alg».proof.Proof.KernelTiles
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Tiles Cert.RowUpdate

/-- The row numbers the tables are read and written at, as the 4096×1 array of start indices both the gather and
    the scatter take: `y` where it is non-negative, `y + 500000` where it is negative. -/
def rowNumbers (y : (⟨S4096, .i32⟩ : BufTy).Contents (Elt Ideal)) : (⟨S4096x1, .i32⟩ : BufTy).Contents (Elt Ideal) :=
  broadcastInDim S4096x1 ![0] Facts₀.bcast_S4096_S4096x1_0
    (select (cmpi .slt y (broadcastInDim S4096 ![] Facts₀.bcast_S_S4096 (constantI S_ 32 0#32)))
      (addi y (broadcastInDim S4096 ![] Facts₀.bcast_S_S4096 (constantI S_ 32 500000#32))) y)

/-- The rows of a table at those numbers. -/
def gathered (tbl : (⟨S500000x128, .f32⟩ : BufTy).Contents (Elt Ideal)) (y : (⟨S4096, .i32⟩ : BufTy).Contents (Elt Ideal)) :
    (⟨S4096x128, .f32⟩ : BufTy).Contents (Elt Ideal) :=
  Host.gather gather_S500000x128_S4096x1_S4096x128_1_0_n_n_0_1_1128 tbl (rowNumbers y)

/-- A table after its update: the new rows, computed from the incoming array and the gathered rows, scattered back. -/
def updated (a : (⟨S4096x128, .f32⟩ : BufTy).Contents (Elt Ideal)) (tbl : (⟨S500000x128, .f32⟩ : BufTy).Contents (Elt Ideal))
    (y : (⟨S4096, .i32⟩ : BufTy).Contents (Elt Ideal)) : (⟨S500000x128, .f32⟩ : BufTy).Contents (Elt Ideal) :=
  Host.scatter scatter_S500000x128_S4096x1_S4096x128_1_0_0_1 (fun _ b => b) tbl (rowNumbers y) (newRows a (gathered tbl y))

/-- A scatter of rows `U` at indices `I` over a table `A` is the update, once each operand is the update's own. -/
theorem updated_of (A : (⟨S500000x128, .f32⟩ : BufTy).Contents (Elt Ideal)) (I : (⟨S4096x1, .i32⟩ : BufTy).Contents (Elt Ideal))
    (U : (⟨S4096x128, .f32⟩ : BufTy).Contents (Elt Ideal))
    (a : (⟨S4096x128, .f32⟩ : BufTy).Contents (Elt Ideal)) (tbl : (⟨S500000x128, .f32⟩ : BufTy).Contents (Elt Ideal))
    (y : (⟨S4096, .i32⟩ : BufTy).Contents (Elt Ideal))
    (hA : A = tbl) (hI : I = rowNumbers y) (hU : U = newRows a (gathered tbl y)) :
    Host.scatter scatter_S500000x128_S4096x1_S4096x128_1_0_0_1 (fun _ b => b) A I U = updated a tbl y := by
  subst hA hI hU; rfl

/-- Contents at a result's type ARE contents of the first result's buffer: the transport between the two is the identity. -/
theorem at_result1 (h1 h2 h3) (v : (⟨S500000x128, .f32⟩ : BufTy).Contents (Elt Ideal)) :
    (StableHlo.TRef.of (T := ⟨S500000x128, .f32⟩) main_v0_0 h1 h2 h3).toBuf v = v := rfl
/-- The same for the second result's buffer. -/
theorem at_result2 (h1 h2 h3) (v : (⟨S500000x128, .f32⟩ : BufTy).Contents (Elt Ideal)) :
    (StableHlo.TRef.of (T := ⟨S500000x128, .f32⟩) main_v0_1 h1 h2 h3).toBuf v = v := rfl

variable (m : (ℓ : Loc nD τ sig) → Buf (Elt Ideal) ℓ) (ρ : Dev nD → PrngReg)

/-- The region finds the first gathered array holding the first table's rows at the row numbers. -/
theorem V_gathered1 (c : Dev nD) :
    V m c main_call0_v6 = gathered (m ((c : Thread nD τ).loc main_arg2)) (m ((c : Thread nD τ).loc main_arg4)) := by
  show StableHlo.after hostOps0 (fun b => m (c, b)) (Proc.devRef .tc main_call0_v6) = _
  after_results
  rfl

/-- The region finds the second gathered array holding the second table's rows at the row numbers. -/
theorem V_gathered2 (c : Dev nD) :
    V m c main_call0_v13 = gathered (m ((c : Thread nD τ).loc main_arg3)) (m ((c : Thread nD τ).loc main_arg4)) := by
  show StableHlo.after hostOps0 (fun b => m (c, b)) (Proc.devRef .tc main_call0_v13) = _
  after_results
  rfl

/-! What core c's buffers hold when the region is left — its six arrays as the run leaves them, every other buffer as
the region found it — read at the five buffers the host's last lines read. -/

/-- The region leaves the first table as launched. -/
theorem left_table1 (c : Dev nD) :
    Pipeline.withArrays (cfgs 0).spec c (V0 m c) (fun w => (dats m 0 c).arrAt w (cfgs 0).N)
      (Proc.devRef .tc (StableHlo.TRef.of (T := ⟨S500000x128, .f32⟩) main_arg2).ref) = m ((c : Thread nD τ).loc main_arg2) :=
  (Pipeline.withArrays_of_ne spec0 c (V0 m c) _ main_arg2 (by exact (by decide : ∀ w, Pipeline.arrRef spec0 w ≠ main_arg2))).trans (V_main_arg2 m c)
/-- The region leaves the second table as launched. -/
theorem left_table2 (c : Dev nD) :
    Pipeline.withArrays (cfgs 0).spec c (V0 m c) (fun w => (dats m 0 c).arrAt w (cfgs 0).N)
      (Proc.devRef .tc (StableHlo.TRef.of (T := ⟨S500000x128, .f32⟩) main_arg3).ref) = m ((c : Thread nD τ).loc main_arg3) :=
  (Pipeline.withArrays_of_ne spec0 c (V0 m c) _ main_arg3 (by exact (by decide : ∀ w, Pipeline.arrRef spec0 w ≠ main_arg3))).trans (V_main_arg3 m c)
/-- The region leaves `y` as launched. -/
theorem left_y (c : Dev nD) :
    Pipeline.withArrays (cfgs 0).spec c (V0 m c) (fun w => (dats m 0 c).arrAt w (cfgs 0).N)
      (Proc.devRef .tc (StableHlo.TRef.of (T := ⟨S4096, .i32⟩) main_arg4).ref) = m ((c : Thread nD τ).loc main_arg4) :=
  (Pipeline.withArrays_of_ne spec0 c (V0 m c) _ main_arg4 (by exact (by decide : ∀ w, Pipeline.arrRef spec0 w ≠ main_arg4))).trans (V_main_arg4 m c)

/-- The region leaves its first result array holding the new rows. -/
theorem left_rows1 (c : Dev nD) :
    Pipeline.withArrays (cfgs 0).spec c (V0 m c) (fun w => (dats m 0 c).arrAt w (cfgs 0).N)
      (Proc.devRef .tc (StableHlo.TRef.of (T := ⟨S4096x128, .f32⟩) main_call0_v14_0).ref)
      = newRows (m ((c : Thread nD τ).loc main_arg0)) (gathered (m ((c : Thread nD τ).loc main_arg2)) (m ((c : Thread nD τ).loc main_arg4))) := by
  refine (Pipeline.withArrays_arr spec0 launch0.win.arr_inj c _ _ 4).trans ((final1 m c).trans ?_)
  rw [V_main_arg0, V_gathered1]

/-- The region leaves its second result array holding the new rows. -/
theorem left_rows2 (c : Dev nD) :
    Pipeline.withArrays (cfgs 0).spec c (V0 m c) (fun w => (dats m 0 c).arrAt w (cfgs 0).N)
      (Proc.devRef .tc (StableHlo.TRef.of (T := ⟨S4096x128, .f32⟩) main_call0_v14_1).ref)
      = newRows (m ((c : Thread nD τ).loc main_arg1)) (gathered (m ((c : Thread nD τ).loc main_arg3)) (m ((c : Thread nD τ).loc main_arg4))) := by
  refine (Pipeline.withArrays_arr spec0 launch0.win.arr_inj c _ _ 5).trans ((final2 m c).trans ?_)
  rw [V_main_arg1, V_gathered2]

/-- The first result after the host's last lines. -/
theorem result1 (c : Dev nD) :
    Pipeline.afterTail₀ cfgs (dats m) 0 (V0 m) [hostOps1] c main_v0_0
      = updated (m ((c : Thread nD τ).loc main_arg0)) (m ((c : Thread nD τ).loc main_arg2)) (m ((c : Thread nD τ).loc main_arg4)) := by
  unfold Pipeline.afterTail₀
  show StableHlo.after hostOps1 _ (Proc.devRef .tc main_v0_0) = _
  after_results
  rw [left_table1 m c, left_y m c, left_rows1 m c, at_result1]
  refine updated_of _ _ _ _ _ _ ?_ ?_ ?_
  · rfl
  · rfl
  · rfl

/-- The second result after the host's last lines. -/
theorem result2 (c : Dev nD) :
    Pipeline.afterTail₀ cfgs (dats m) 0 (V0 m) [hostOps1] c main_v0_1
      = updated (m ((c : Thread nD τ).loc main_arg1)) (m ((c : Thread nD τ).loc main_arg3)) (m ((c : Thread nD τ).loc main_arg4)) := by
  unfold Pipeline.afterTail₀
  show StableHlo.after hostOps1 _ (Proc.devRef .tc main_v0_1) = _
  after_results
  rw [left_table2 m c, left_y m c, left_rows2 m c, at_result2]
  refine updated_of _ _ _ _ _ _ ?_ ?_ ?_
  · rfl
  · rfl
  · rfl

end Cert.KernelIdeal.Run

end
-- ==== Proof.RefRows.lean ====
/-
  The reference program's stages, read one row at a time at the ideal instance.

  The reference normalises all 4096 rows of an array at once: it squares entrywise, sums over the 128 columns,
  takes the square root, floors at `eps`, broadcasts the 4096×1 column of floored norms back over the columns and
  divides. Entry (r, c) of the quotient depends only on row r; so do the blend and the second normalisation,
  and entry (r, c) of the rows the reference scatters is `RowUpdate.newRow` of row r of the incoming array and
  row r of the gathered array, at c.
-/
import proofs.«414311_j73650099192086_3_alg».proof.Proof.Gen.ReferenceIdeal.Read
import proofs.«414311_j73650099192086_3_alg».proof.Proof.RowSpec
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.Rows

open Cert.ReferenceIdeal Cert.ReferenceIdeal.Gen Cert.ReferenceIdeal.Read Cert.RowUpdate

/-- The first incoming array scaled to unit-length rows, at entry (r, c). -/
theorem unit1_apply (x0 : (⟨S4096x128, .f32⟩ : BufTy).Contents (Elt Ideal)) (r : Fin 4096) (c : Fin 128) :
    val_main_v4 (F := Ideal) x0 (ix2 r c) = unitRow (fun k => x0 (ix2 r k)) c := by
  have hrow : ∀ k : Fin 128, idx_main_call0_v1 (idx_main_call0_v2 (idx_main_v3 (ix2 r c))) k = ix2 r k := fun k =>
    funext fun a => Fin.ext (by match a with | ⟨0, _⟩ => rfl | ⟨1, _⟩ => rfl)
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, hrow, Ideal.hostDivf_def, Ideal.maximumf_def, Ideal.hostUnary_sqrt_def, Ideal.mulf_def,
    Ideal.ofBits_def, Ideal.ofBits_zero_f32, zero_add]
  rfl

/-- The first blend, at entry (r, k): the gathered row and the unit-length incoming row with equal weights. -/
theorem blend1_apply (x0 : (⟨S4096x128, .f32⟩ : BufTy).Contents (Elt Ideal)) (x2 : (⟨S500000x128, .f32⟩ : BufTy).Contents (Elt Ideal))
    (x4 : (⟨S4096, .i32⟩ : BufTy).Contents (Elt Ideal)) (r : Fin 4096) (k : Fin 128) :
    val_main_v21 (F := Ideal) x0 x2 x4 (ix2 r k)
      = blendRow (fun k => val_main_v16 (F := Ideal) x2 x4 (ix2 r k)) (fun k => x0 (ix2 r k)) k := by
  rw [val_main_v21_apply, val_main_v18_apply, val_main_v20_apply, val_main_v17_apply, val_main_v19_apply,
    val_main_cst_2_apply, val_main_cst_3_apply, unit1_apply]
  simp only [Ideal.addf_def, Ideal.mulf_def, Ideal.ofBits_def]
  rfl

/-- The rows the reference scatters into the first table, at entry (r, c). -/
theorem rows1_apply (x0 : (⟨S4096x128, .f32⟩ : BufTy).Contents (Elt Ideal)) (x2 : (⟨S500000x128, .f32⟩ : BufTy).Contents (Elt Ideal))
    (x4 : (⟨S4096, .i32⟩ : BufTy).Contents (Elt Ideal)) (r : Fin 4096) (c : Fin 128) :
    val_main_v26 (F := Ideal) x0 x2 x4 (ix2 r c)
      = newRow (fun k => x0 (ix2 r k)) (fun k => val_main_v16 (F := Ideal) x2 x4 (ix2 r k)) c := by
  have hrow : ∀ k : Fin 128, idx_main_call2_v1 (idx_main_call2_v2 (idx_main_v25 (ix2 r c))) k = ix2 r k := fun k =>
    funext fun a => Fin.ext (by match a with | ⟨0, _⟩ => rfl | ⟨1, _⟩ => rfl)
  rw [val_main_v26_apply, val_main_v25_apply, val_main_v24_apply, val_main_v22_apply, val_main_call2_v2_apply,
    val_main_call2_v1_apply, val_main_v23_apply, val_main_cst_4_apply, val_main_call2_cst_apply]
  simp only [val_main_call2_v0_apply, hrow, blend1_apply, Ideal.hostDivf_def, Ideal.maximumf_def, Ideal.hostUnary_sqrt_def,
    Ideal.mulf_def, Ideal.ofBits_def, Ideal.ofBits_zero_f32, zero_add]
  rfl

/-- The second incoming array scaled to unit-length rows, at entry (r, c). -/
theorem unit2_apply (x1 : (⟨S4096x128, .f32⟩ : BufTy).Contents (Elt Ideal)) (r : Fin 4096) (c : Fin 128) :
    val_main_v9 (F := Ideal) x1 (ix2 r c) = unitRow (fun k => x1 (ix2 r k)) c := by
  have hrow : ∀ k : Fin 128, idx_main_call1_v1 (idx_main_call1_v2 (idx_main_v8 (ix2 r c))) k = ix2 r k := fun k =>
    funext fun a => Fin.ext (by match a with | ⟨0, _⟩ => rfl | ⟨1, _⟩ => rfl)
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, hrow, Ideal.hostDivf_def, Ideal.maximumf_def, Ideal.hostUnary_sqrt_def, Ideal.mulf_def,
    Ideal.ofBits_def, Ideal.ofBits_zero_f32, zero_add]
  rfl

/-- The second blend, at entry (r, k). -/
theorem blend2_apply (x1 : (⟨S4096x128, .f32⟩ : BufTy).Contents (Elt Ideal)) (x3 : (⟨S500000x128, .f32⟩ : BufTy).Contents (Elt Ideal))
    (x4 : (⟨S4096, .i32⟩ : BufTy).Contents (Elt Ideal)) (r : Fin 4096) (k : Fin 128) :
    val_main_v45 (F := Ideal) x1 x3 x4 (ix2 r k)
      = blendRow (fun k => val_main_v40 (F := Ideal) x3 x4 (ix2 r k)) (fun k => x1 (ix2 r k)) k := by
  rw [val_main_v45_apply, val_main_v42_apply, val_main_v44_apply, val_main_v41_apply, val_main_v43_apply,
    val_main_cst_9_apply, val_main_cst_10_apply, unit2_apply]
  simp only [Ideal.addf_def, Ideal.mulf_def, Ideal.ofBits_def]
  rfl

/-- The rows the reference scatters into the second table, at entry (r, c). -/
theorem rows2_apply (x1 : (⟨S4096x128, .f32⟩ : BufTy).Contents (Elt Ideal)) (x3 : (⟨S500000x128, .f32⟩ : BufTy).Contents (Elt Ideal))
    (x4 : (⟨S4096, .i32⟩ : BufTy).Contents (Elt Ideal)) (r : Fin 4096) (c : Fin 128) :
    val_main_v50 (F := Ideal) x1 x3 x4 (ix2 r c)
      = newRow (fun k => x1 (ix2 r k)) (fun k => val_main_v40 (F := Ideal) x3 x4 (ix2 r k)) c := by
  have hrow : ∀ k : Fin 128, idx_main_call3_v1 (idx_main_call3_v2 (idx_main_v49 (ix2 r c))) k = ix2 r k := fun k =>
    funext fun a => Fin.ext (by match a with | ⟨0, _⟩ => rfl | ⟨1, _⟩ => rfl)
  rw [val_main_v50_apply, val_main_v49_apply, val_main_v48_apply, val_main_v46_apply, val_main_call3_v2_apply,
    val_main_call3_v1_apply, val_main_v47_apply, val_main_cst_11_apply, val_main_call3_cst_apply]
  simp only [val_main_call3_v0_apply, hrow, blend2_apply, Ideal.hostDivf_def, Ideal.maximumf_def, Ideal.hostUnary_sqrt_def,
    Ideal.mulf_def, Ideal.ofBits_def, Ideal.ofBits_zero_f32, zero_add]
  rfl

end Cert.ReferenceIdeal.Rows

end
-- ==== Proof.Bridge.lean ====
/-
  The two programs' results are one function of the arguments.

  The reference's result is the table with the rows `val_main_v26` scattered at the row numbers `val_main_v32`;
  the kernel's is the table with `newRows` of the incoming array and the gathered rows scattered at `rowNumbers`.
  The row numbers are the same integer operations of `y` on both sides, the gather and the scatter the same
  operations with the same dimension numbers, and the scattered rows agree entry by entry because each entry is the
  row function `RowUpdate.newRow` of its own row on both sides.
-/
import proofs.«414311_j73650099192086_3_alg».proof.Proof.KernelRun
import proofs.«414311_j73650099192086_3_alg».proof.Proof.RefRows

noncomputable section

open Idealize.ShloMosaic Idealize.ShloMosaic.TcCoe Idealize.SL.Sem Idealize.ShloMosaic.ValueIdx

namespace Cert.Bridge

open Cert.RowUpdate Cert.KernelIdeal.Tiles Cert.KernelIdeal.Run

/-- The gather's dimension numbers are the same record in both programs. -/
theorem gather_dims :
    Cert.ReferenceIdeal.gather_S500000x128_S4096x1_S4096x128_1_0_n_n_0_1_1128
      = Cert.KernelIdeal.gather_S500000x128_S4096x1_S4096x128_1_0_n_n_0_1_1128 := rfl

/-- The scatter's dimension numbers are the same record in both programs. -/
theorem scatter_dims :
    Cert.ReferenceIdeal.scatter_S500000x128_S4096x1_S4096x128_1_0_0_1
      = Cert.KernelIdeal.scatter_S500000x128_S4096x1_S4096x128_1_0_0_1 := rfl

/-- The reference computes the row numbers four times (once per gather and per scatter), each time as the kernel does. -/
theorem rowNumbers_g1 (x4 : (⟨Cert.ReferenceIdeal.S4096, .i32⟩ : BufTy).Contents (Elt Ideal)) :
    Cert.ReferenceIdeal.Read.val_main_v15 (F := Ideal) x4 = rowNumbers x4 := rfl
theorem rowNumbers_s1 (x4 : (⟨Cert.ReferenceIdeal.S4096, .i32⟩ : BufTy).Contents (Elt Ideal)) :
    Cert.ReferenceIdeal.Read.val_main_v32 (F := Ideal) x4 = rowNumbers x4 := rfl
theorem rowNumbers_g2 (x4 : (⟨Cert.ReferenceIdeal.S4096, .i32⟩ : BufTy).Contents (Elt Ideal)) :
    Cert.ReferenceIdeal.Read.val_main_v39 (F := Ideal) x4 = rowNumbers x4 := rfl
theorem rowNumbers_s2 (x4 : (⟨Cert.ReferenceIdeal.S4096, .i32⟩ : BufTy).Contents (Elt Ideal)) :
    Cert.ReferenceIdeal.Read.val_main_v56 (F := Ideal) x4 = rowNumbers x4 := rfl

/-- The rows the reference gathers from the first table are the kernel's. -/
theorem gathered1 (x2 : (⟨Cert.ReferenceIdeal.S500000x128, .f32⟩ : BufTy).Contents (Elt Ideal))
    (x4 : (⟨Cert.ReferenceIdeal.S4096, .i32⟩ : BufTy).Contents (Elt Ideal)) :
    Cert.ReferenceIdeal.Read.val_main_v16 (F := Ideal) x2 x4 = gathered x2 x4 := by
  unfold Cert.ReferenceIdeal.Read.val_main_v16 gathered
  rw [rowNumbers_g1, gather_dims]

/-- The rows the reference gathers from the second table are the kernel's. -/
theorem gathered2 (x3 : (⟨Cert.ReferenceIdeal.S500000x128, .f32⟩ : BufTy).Contents (Elt Ideal))
    (x4 : (⟨Cert.ReferenceIdeal.S4096, .i32⟩ : BufTy).Contents (Elt Ideal)) :
    Cert.ReferenceIdeal.Read.val_main_v40 (F := Ideal) x3 x4 = gathered x3 x4 := by
  unfold Cert.ReferenceIdeal.Read.val_main_v40 gathered
  rw [rowNumbers_g2, gather_dims]

/-- The rows the reference scatters into the first table are the kernel's new rows. -/
theorem rows1 (x0 : (⟨Cert.ReferenceIdeal.S4096x128, .f32⟩ : BufTy).Contents (Elt Ideal))
    (x2 : (⟨Cert.ReferenceIdeal.S500000x128, .f32⟩ : BufTy).Contents (Elt Ideal))
    (x4 : (⟨Cert.ReferenceIdeal.S4096, .i32⟩ : BufTy).Contents (Elt Ideal)) :
    Cert.ReferenceIdeal.Read.val_main_v26 (F := Ideal) x0 x2 x4 = newRows x0 (gathered x2 x4) := by
  funext i
  obtain ⟨r, c, rfl⟩ : ∃ (r : Fin 4096) (c : Fin 128), i = ix2 r c := ⟨i 0, i 1, eq_ix2 i⟩
  rw [Cert.ReferenceIdeal.Rows.rows1_apply, gathered1]
  rfl

/-- The rows the reference scatters into the second table are the kernel's new rows. -/
theorem rows2 (x1 : (⟨Cert.ReferenceIdeal.S4096x128, .f32⟩ : BufTy).Contents (Elt Ideal))
    (x3 : (⟨Cert.ReferenceIdeal.S500000x128, .f32⟩ : BufTy).Contents (Elt Ideal))
    (x4 : (⟨Cert.ReferenceIdeal.S4096, .i32⟩ : BufTy).Contents (Elt Ideal)) :
    Cert.ReferenceIdeal.Read.val_main_v50 (F := Ideal) x1 x3 x4 = newRows x1 (gathered x3 x4) := by
  funext i
  obtain ⟨r, c, rfl⟩ : ∃ (r : Fin 4096) (c : Fin 128), i = ix2 r c := ⟨i 0, i 1, eq_ix2 i⟩
  rw [Cert.ReferenceIdeal.Rows.rows2_apply, gathered2]
  rfl

/-- The reference's first result is the kernel's. -/
theorem result1 (x0 : (⟨Cert.ReferenceIdeal.S4096x128, .f32⟩ : BufTy).Contents (Elt Ideal))
    (x2 : (⟨Cert.ReferenceIdeal.S500000x128, .f32⟩ : BufTy).Contents (Elt Ideal))
    (x4 : (⟨Cert.ReferenceIdeal.S4096, .i32⟩ : BufTy).Contents (Elt Ideal)) :
    Cert.ReferenceIdeal.Read.val_main_v33 (F := Ideal) x0 x2 x4 = updated x0 x2 x4 := by
  unfold Cert.ReferenceIdeal.Read.val_main_v33 updated
  rw [rows1, rowNumbers_s1, scatter_dims]

/-- The reference's second result is the kernel's. -/
theorem result2 (x1 : (⟨Cert.ReferenceIdeal.S4096x128, .f32⟩ : BufTy).Contents (Elt Ideal))
    (x3 : (⟨Cert.ReferenceIdeal.S500000x128, .f32⟩ : BufTy).Contents (Elt Ideal))
    (x4 : (⟨Cert.ReferenceIdeal.S4096, .i32⟩ : BufTy).Contents (Elt Ideal)) :
    Cert.ReferenceIdeal.Read.val_main_v57 (F := Ideal) x1 x3 x4 = updated x1 x3 x4 := by
  unfold Cert.ReferenceIdeal.Read.val_main_v57 updated
  rw [rows2, rowNumbers_s2, scatter_dims]

end Cert.Bridge

end
-- ==== Proof.lean ====
/-
  The certificate of the memory-bank update: the kernel and its reference are equal over the extended reals.

  Both programs take two incoming arrays of 4096 rows, two tables of 500000 rows and 4096 row numbers `y`.
  For each table they gather the rows `y` names, blend each gathered row with the unit-length incoming row
  of the same position, scale the blend to unit length, and scatter the new rows back at `y`. The kernel does
  the arithmetic in one region on 512-row tiles with the gather before and the scatter after it on the host;
  the reference does everything on the host at full height. A new row depends only on its own two rows
  (Proof/RowSpec.lean), so tiling changes nothing: the kernel's region leaves `newRows` of the incoming and the
  gathered arrays (Proof/KernelRows.lean, Proof/KernelTiles.lean), its results are `updated`
  (Proof/KernelRun.lean), the reference's stages read row by row are the same row function (Proof/RefRows.lean),
  and its results are `updated` too (Proof/Bridge.lean). Finiteness of the inputs is never used.

  The three frames are the generated frame runs (the reference's is its generated run with the results dropped);
  the ideal pass rewrote nothing, so `preserves` is trivial.
-/
import proofs.«414311_j73650099192086_3_alg».proof.Defs
import proofs.«414311_j73650099192086_3_alg».proof.Proof.Gen.Kernel
import proofs.«414311_j73650099192086_3_alg».proof.Proof.Gen.Kernel.Skeleton
import proofs.«414311_j73650099192086_3_alg».proof.Proof.Gen.Kernel.Launch
import proofs.«414311_j73650099192086_3_alg».proof.Proof.Gen.Kernel.Points
import proofs.«414311_j73650099192086_3_alg».proof.Proof.Gen.Kernel.Frame
import proofs.«414311_j73650099192086_3_alg».proof.Proof.Gen.KernelIdeal
import proofs.«414311_j73650099192086_3_alg».proof.Proof.Gen.KernelIdeal.Skeleton
import proofs.«414311_j73650099192086_3_alg».proof.Proof.Gen.KernelIdeal.Launch
import proofs.«414311_j73650099192086_3_alg».proof.Proof.Gen.KernelIdeal.Points
import proofs.«414311_j73650099192086_3_alg».proof.Proof.Gen.KernelIdeal.Frame
import proofs.«414311_j73650099192086_3_alg».proof.Proof.Gen.ReferenceIdeal
import proofs.«414311_j73650099192086_3_alg».proof.Proof.Gen.Pre_finite_inputs
import proofs.«414311_j73650099192086_3_alg».proof.Proof.Gen.ReferenceIdeal.Run
import proofs.«414311_j73650099192086_3_alg».proof.Proof.Gen.ReferenceIdeal.Read
import proofs.«414311_j73650099192086_3_alg».proof.Proof.Bridge
import Idealize.ShloMosaic.Adequacy
import Idealize.ShloMosaic.Init

noncomputable section

namespace Cert.Proof

open Idealize.ShloMosaic Idealize.ShloMosaic.TcCoe Idealize.SL.Sem

/-! ## The idealized kernel's run, read -/

section KernelRun

open Cert.KernelIdeal Cert.KernelIdeal.Gen Cert.KernelIdeal.Run

/-- Every weakly fair execution of the idealized kernel ends with each result at the update of its table and the
    arguments unchanged: the generated frame run, its two results read through the host's last lines. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0)
        = updated (m ((c.tc : Thread nD τ).loc main_arg0)) (m ((c.tc : Thread nD τ).loc main_arg2)) (m ((c.tc : Thread nD τ).loc main_arg4))
      ∧ r.2.mem ((c.tc : Thread nD τ).loc main_v0_1)
        = updated (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v0_0 (Pipeline.mem_restRefs_of main_v0_0 (by decide) (by decide))).trans (result1 m c),
      ((h c).2 main_v0_1 (Pipeline.mem_restRefs_of main_v0_1 (by decide) (by decide))).trans (result2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end KernelRun

/-! ## The claims -/

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its generated run with the results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The ideal pass rewrote no operation: nothing to preserve. -/
theorem preserves : Cert.preserves_Kernel_KernelIdeal := trivial

/-- From memories agreeing on the arguments both programs end with each table updated: one function of the arguments. -/
theorem algebraic : Cert.algebraic_KernelIdeal_ReferenceIdeal := by
  intro m ρ m' ρ' _ hagree
  refine ⟨_, _, kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.2.1, (hagree c).2.2.2.2]
    exact (Cert.ReferenceIdeal.Read.val_main_v33_eq _ _ _).trans (Cert.Bridge.result1 _ _ _)
  · rw [(hagree c).2.1, (hagree c).2.2.2.1, (hagree c).2.2.2.2]
    exact (Cert.ReferenceIdeal.Read.val_main_v57_eq _ _ _).trans (Cert.Bridge.result2 _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
